-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S768x768 : Shape := ⟨2, ![768, 768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S64x1024x768 .f32) (main_arg1 : FVec F S768x768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S64x1024x768 : Shape := ⟨3, ![64, 1024, 768]⟩
abbrev S768x768 : Shape := ⟨2, ![768, 768]⟩
abbrev S64x1024x1024 : Shape := ⟨3, ![64, 1024, 1024]⟩
abbrev S1x1024x768 : Shape := ⟨3, ![1, 1024, 768]⟩
abbrev S1x1024x1024 : Shape := ⟨3, ![1, 1024, 1024]⟩
abbrev S1024x768 : Shape := ⟨2, ![1024, 768]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 5
  | .vmem => 5
  | .smem => 0
  | _ => 0

abbrev bufTy : (tb : Table) → Fin (tcTables nBuf tb) → BufTy
  | .hbm, ⟨0, _⟩ => ⟨S64x1024x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S64x1024x1024, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .f32⟩
  | .local _ .vmem, ⟨3, _⟩ => ⟨S1x1024x1024, .f32⟩
  | .local _ .vmem, ⟨4, _⟩ => ⟨S1x1024x1024, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S768x768_S768x768_1_0 : S768x768.Transposes [1, 0] S768x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  reduces_S1024x768_S1024 : S1024x768.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x768_S768x768_S1024x768_1_0_0_1_n_n_wf : DotDims.WF S1024x768 S768x768 S1024x768 [1] [0] [0] [1] [] []
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S64x1024x768.size a
  hwx0_0 : ∀ i : grid0.Coords, EltTy.bits .f32 = 32 ∨ (Rect.block (s := S64x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S768x768 : Shape := ⟨2, ![768, 768]⟩
abbrev S64x1024x1024 : Shape := ⟨3, ![64, 1024, 1024]⟩
abbrev S1024x1024 : Shape := ⟨2, ![1024, 1024]⟩
abbrev S_ : Shape := ⟨0, ![]⟩
abbrev S64x1024 : Shape := ⟨2, ![64, 1024]⟩
abbrev S64x1024x1 : Shape := ⟨3, ![64, 1024, 1]⟩
abbrev S64x1x1024 : Shape := ⟨3, ![64, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S768x768, .f32⟩
  | .hbm, ⟨2, _⟩ => ⟨S64x1024x768, .f32⟩
  | .hbm, ⟨3, _⟩ => ⟨S64x1024x1024, .f32⟩
  | .hbm, ⟨4, _⟩ => ⟨S1024x1024, .i32⟩
  | .hbm, ⟨5, _⟩ => ⟨S1024x1024, .i32⟩
  | .hbm, ⟨6, _⟩ => ⟨S1024x1024, .i1⟩
  | .hbm, ⟨7, _⟩ => ⟨S64x1024x1024, .i1⟩
  | .hbm, ⟨8, _⟩ => ⟨S_, .f32⟩
  | .hbm, ⟨9, _⟩ => ⟨S64x1024x1024, .f32⟩
  | .hbm, ⟨10, _⟩ => ⟨S64x1024x1024, .f32⟩
  | .hbm, ⟨11, _⟩ => ⟨S_, .f32⟩
  | .hbm, ⟨12, _⟩ => ⟨S64x1024, .f32⟩
  | .hbm, ⟨13, _⟩ => ⟨S64x1024x1, .f32⟩
  | .hbm, ⟨14, _⟩ => ⟨S64x1x1024, .f32⟩
  | .hbm, ⟨15, _⟩ => ⟨S64x1024x1024, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  bcast_S1024x1024_S64x1024x1024_1_2 : S1024x1024.BroadcastsInDim S64x1024x1024 (![1, 2] : Fin 2 → Fin S64x1024x1024.rank)
  bcast_S_S64x1024x1024 : S_.BroadcastsInDim S64x1024x1024 (![] : Fin 0 → Fin S64x1024x1024.rank)
  reducesTo_S64x1024x1024_S64x1024_d1 : S64x1024x1024.ReducesTo [1] S64x1024
  h_S_ : 0 < S_.numel
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  transposes_S64x1024x1024_S64x1024x1024_0_2_1 : S64x1024x1024.Transposes [0, 2, 1] S64x1024x1024
  dot_S64x1024x768_S768x768_S64x1024x768_2_0_01_1_n_n_wf : DotDims.WF S64x1024x768 S768x768 S64x1024x768 [2] [0] [0, 1] [1] [] []
  dot_S64x1024x768_S64x1024x768_S64x1024x1024_2_2_1_1_0_0_wf : DotDims.WF S64x1024x768 S64x1024x768 S64x1024x1024 [2] [2] [1] [1] [0] [0]

variable [Facts₀]

def dot_S64x1024x768_S768x768_S64x1024x768_2_0_01_1_n_n : DotDims S64x1024x768 S768x768 S64x1024x768 where
  lhsContracting := [2]
  rhsContracting := [0]
  lhsNonContracting := [0, 1]
  rhsNonContracting := [1]
  lhsBatch := []
  rhsBatch := []
  wf := dot_S64x1024x768_S768x768_S64x1024x768_2_0_01_1_n_n_wf
def dot_S64x1024x768_S64x1024x768_S64x1024x1024_2_2_1_1_0_0 : DotDims S64x1024x768 S64x1024x768 S64x1024x1024 where
  lhsContracting := [2]
  rhsContracting := [2]
  lhsNonContracting := [1]
  rhsNonContracting := [1]
  lhsBatch := [0]
  rhsBatch := [0]
  wf := dot_S64x1024x768_S64x1024x768_S64x1024x1024_2_2_1_1_0_0_wf

class Facts : Prop extends Facts₀ where

variable [Facts]
-- ==== Proof.QuadForm.lean ====
/-
  The algebra of the certificate, free of any program: a pairwise quadratic form written two ways.

  For rows `h p : J → EReal` and a square matrix `a`, write `bil a x y = Σ_e (Σ_d x d · a d e) · y e`, the
  bilinear form `xᵀ a y`. The reference computes
      `(bil a x x + bil a y y − bil a x y) − bil a y x`,
  the expansion of `(x − y)ᵀ a (x − y)`. The kernel symmetrises the matrix first, `s d e = a d e + a e d`, and computes
      `(½ · bil s x x + ½ · bil s y y) − bil s x y`.
  Over the reals `bil s x y = bil a x y + bil a y x` (exchange the two sums in the transposed half), hence
  `½ · bil s x x = bil a x x`, and the two expressions are one. On the extended reals the step uses distributivity,
  which fails at the infinities, so the equality is stated for rows and a matrix whose entries are all real numbers.
-/
import Idealize.ShloMosaic.PureOps.Ideal

noncomputable section

namespace Cert.QuadForm

open Finset

variable {I J : Type} [Fintype J]

/-- The bilinear form `xᵀ a y` on the extended reals, summed in the order both programs sum it: first over the
    row index of `a` against `x`, then over its column index against `y`. -/
def bil (a : J → J → EReal) (x y : J → EReal) : EReal := ∑ e, (∑ d, x d * a d e) * y e

/-- The same over the reals. -/
def bilR (a : J → J → ℝ) (x y : J → ℝ) : ℝ := ∑ e, (∑ d, x d * a d e) * y e

/-- What the kernel's body computes at the pair of rows `(p, q)` from the matrix `s` it is handed: half the two diagonal
    forms, minus the cross form. `half` is the value its constant denotes. -/
def symForm (half : EReal) (h : I → J → EReal) (s : J → J → EReal) (p q : I) : EReal :=
  (half * bil s (h p) (h p) + half * bil s (h q) (h q)) - bil s (h p) (h q)

/-- What the kernel computes from `a`: its body's form at the symmetrised matrix `a + aᵀ`, which the program
    forms before the body runs. -/
def kernelForm (half : EReal) (h : I → J → EReal) (a : J → J → EReal) (p q : I) : EReal :=
  symForm half h (fun d e => a d e + a e d) p q

/-- What the reference computes at `(p, q)`: the two diagonal forms minus the two cross forms, one after the other. -/
def referenceForm (h : I → J → EReal) (a : J → J → EReal) (p q : I) : EReal :=
  ((bil a (h p) (h p) + bil a (h q) (h q)) - bil a (h p) (h q)) - bil a (h q) (h p)

/-- The coercion of a finite real sum is the sum of the coercions. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real rows and a real matrix the extended-real form is the real one. -/
theorem bil_coe (a : J → J → ℝ) (x y : J → ℝ) :
    bil (fun d e => ((a d e : ℝ) : EReal)) (fun d => ((x d : ℝ) : EReal)) (fun e => ((y e : ℝ) : EReal)) = ((bilR a x y : ℝ) : EReal) := by
  unfold bil bilR
  simp only [coe_sum, EReal.coe_mul]

/-- The form of the symmetrised matrix is the form plus the form with the rows exchanged: in the transposed half,
    `Σ_e Σ_d x d · a e d · y e`, exchange the sums and rename. -/
theorem bilR_symm (a : J → J → ℝ) (x y : J → ℝ) :
    bilR (fun d e => a d e + a e d) x y = bilR a x y + bilR a y x := by
  unfold bilR
  simp only [mul_add, Finset.sum_add_distrib, add_mul]
  congr 1
  simp only [Finset.sum_mul]
  rw [Finset.sum_comm]
  refine Finset.sum_congr rfl fun e _ => Finset.sum_congr rfl fun d _ => ?_
  ring

/-- THE LAW: on real entries the kernel's expression with the constant `½` is the reference's. -/
theorem kernelForm_eq_referenceForm (h : I → J → EReal) (a : J → J → EReal)
    (hh : ∀ p d, ∃ r : ℝ, h p d = (r : EReal)) (ha : ∀ d e, ∃ r : ℝ, a d e = (r : EReal)) (p q : I) :
    kernelForm (((1 / 2 : ℝ) : ℝ) : EReal) h a p q = referenceForm h a p q := by
  choose hr hhr using hh
  choose ar har using ha
  obtain rfl : h = fun p d => ((hr p d : ℝ) : EReal) := funext fun p => funext fun d => hhr p d
  obtain rfl : a = fun d e => ((ar d e : ℝ) : EReal) := funext fun d => funext fun e => har d e
  unfold kernelForm symForm referenceForm
  have hs : (fun d e => ((ar d e : ℝ) : EReal) + ((ar e d : ℝ) : EReal)) = fun d e => (((ar d e + ar e d : ℝ)) : EReal) :=
    funext fun d => funext fun e => (EReal.coe_add _ _).symm
  rw [hs]
  simp only [bil_coe (fun d e => ar d e + ar e d), bil_coe ar, bilR_symm]
  rw [← EReal.coe_mul, ← EReal.coe_mul, ← EReal.coe_add, ← EReal.coe_sub, ← EReal.coe_add, ← EReal.coe_sub, ← EReal.coe_sub]
  congr 1
  ring

end Cert.QuadForm

end
-- ==== Proof.Columns.lean ====
/-
  Small facts both value legs use, free of any program.

  • A vector `[a]` recast as a column `[a, 1]`, and a column broadcast over `b` lanes, read at an index given by
    coordinates: the column forms of the library's row lemmas.
  • The diagonal of a square family taken as a masked sum: `0 + Σ_k (if word k = word j then f k else 0) = f j`, the
    mask being an equality test of 32-bit words that hold numbers below `2^32`.
  • The single-precision pattern `0x3F000000` denotes the real number `1/2`.
-/
import Idealize.ShloMosaic.Lib.ValueLayout
import Idealize.ShloMosaic.Lib.StableHlo.Predicate
import Idealize.ShloMosaic.PureOps.Ideal.Laws

noncomputable section

namespace Cert.Columns

open Idealize.ShloMosaic Idealize.ShloMosaic.ValueIdx

variable {α : Type}

/-- An `[a]` vector cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two numbers below `2^32` have the same 32-bit word only if they are equal. -/
theorem ofNat32_inj {k j : ℕ} (hk : k < 2 ^ 32) (hj : j < 2 ^ 32) : BitVec.ofNat 32 k = BitVec.ofNat 32 j ↔ k = j := by
  constructor
  · intro h
    have := congrArg BitVec.toNat h
    rwa [BitVec.toNat_ofNat, BitVec.toNat_ofNat, Nat.mod_eq_of_lt hk, Nat.mod_eq_of_lt hj] at this
  · rintro rfl; rfl

/-- THE DIAGONAL AS A MASKED SUM: summing over `k` the family `f k` kept where the words of `k` and `j` are equal, and
    zero elsewhere, from the initial value zero, leaves `f j`. -/
theorem sum_select_diag {n : ℕ} (hn : n ≤ 2 ^ 32) (f : Fin n → EReal) (j : Fin n) :
    (0 : EReal) + ∑ k : Fin n, Scalar.select (IntOp.cmpi .eq (BitVec.ofNat 32 k.val) (BitVec.ofNat 32 j.val)) (f k) 0 = f j := by
  have hsel : ∀ k : Fin n, Scalar.select (IntOp.cmpi .eq (BitVec.ofNat 32 k.val) (BitVec.ofNat 32 j.val)) (f k) (0 : EReal)
      = if k = j then f k else 0 := fun k => by
    unfold Scalar.select
    refine if_congr ?_ rfl rfl
    exact (StableHlo.Predicate.cmpi_eq_iff (a := BitVec.ofNat 32 k.val) (b := BitVec.ofNat 32 j.val)).trans
      ((ofNat32_inj (lt_of_lt_of_le k.isLt hn) (lt_of_lt_of_le j.isLt hn)).trans Fin.val_inj)
  simp only [hsel, Finset.sum_ite_eq', Finset.mem_univ, if_true, zero_add]

/-- The pattern of single-precision `0.5` denotes the real `1/2`. -/
theorem ofBits_half : Ideal.ofBits .f32 0x3F000000#32 = (((1 / 2 : ℝ) : ℝ) : EReal) := by
  simp [Ideal.ofBits, Ideal.ieee, -EReal.coe_mul]; norm_num

end Cert.Columns

end
-- ==== Proof.RefValue.lean ====
/-
  The reference, read at an index. Its result at `(b, i, j)` is, operation by operation: the two contractions give
  `cross[b, i, j] = Σ_e (Σ_d batch[b, i, d] · proj[d, e]) · batch[b, j, e]`, the bilinear form of rows `i` and `j` of
  batch element `b` under `proj`; the masked sum over the first of the two row axes, the mask the equality of the two
  iotas, gives its diagonal `q[b, j] = cross[b, j, j]`; and the result is `((q[b, i] + q[b, j]) − cross[b, i, j]) −
  cross[b, j, i]`, the transposed copy read at the exchanged rows.
-/
import proofs.«110251_j4148938408316_1_alg».proof.Proof.Gen.ReferenceIdeal.Read
import proofs.«110251_j4148938408316_1_alg».proof.Proof.QuadForm
import proofs.«110251_j4148938408316_1_alg».proof.Proof.Columns

noncomputable section

namespace Cert.RefValue

open Cert.ReferenceIdeal Cert.ReferenceIdeal.Read Idealize.ShloMosaic Idealize.ShloMosaic.ValueIdx Cert.QuadForm

variable (x0 : (⟨S64x1024x768, .f32⟩ : BufTy).Contents (Elt Ideal)) (x1 : (⟨S768x768, .f32⟩ : BufTy).Contents (Elt Ideal))

/-- Row `p` of batch element `b`, and the matrix, as plain families. -/
abbrev rows (b : Fin 64) : Fin 1024 → Fin 768 → EReal := fun p d => x0 (ix3 b p d)
abbrev mat : Fin 768 → Fin 768 → EReal := fun d e => x1 (ix2 d e)

/-- The second contraction at `(b, i, j)` is the bilinear form of rows `i` and `j`. -/
theorem cross_apply (b : Fin 64) (i j : Fin 1024) :
    val_main_v1 (F := Ideal) x0 x1 (ix3 b i j) = bil (mat x1) (rows x0 b i) (rows x0 b j) := by
  rw [val_main_v1_apply]
  unfold bil
  refine Finset.sum_congr rfl fun e _ => ?_
  rw [val_main_v0_apply]
  have e1 : ridx_main_v1 (ix3 b i j) e = ix3 b j e := funext fun a => Fin.ext (by
    match a with | ⟨0, _⟩ => rfl | ⟨1, _⟩ => rfl | ⟨2, _⟩ => rfl)
  have e2 : ∀ d : Fin 768, lidx_main_v0 (lidx_main_v1 (ix3 b i j) e) d = ix3 b i d := fun d => funext fun a => Fin.ext (by
    match a with | ⟨0, _⟩ => rfl | ⟨1, _⟩ => rfl | ⟨2, _⟩ => rfl)
  have e3 : ∀ d : Fin 768, ridx_main_v0 (lidx_main_v1 (ix3 b i j) e) d = ix2 d e := fun d => funext fun a => Fin.ext (by
    match a with | ⟨0, _⟩ => rfl | ⟨1, _⟩ => rfl)
  simp only [e1, e2, e3]

/-- The masked sum at `(b, j)` is the diagonal entry `cross[b, j, j]`. -/
theorem diag_apply (b : Fin 64) (j : Fin 1024) :
    val_main_v8 (F := Ideal) x0 x1 (ix2 b j) = bil (mat x1) (rows x0 b j) (rows x0 b j) := by
  rw [val_main_v8_apply]
  have hterm : ∀ k : Fin 1024, val_main_v7 (F := Ideal) x0 x1 (idx_main_v8 (ix2 b j) k)
      = Scalar.select (IntOp.cmpi .eq (BitVec.ofNat 32 k.val) (BitVec.ofNat 32 j.val)) (bil (mat x1) (rows x0 b k) (rows x0 b j)) 0 := fun k => by
    have e1 : idx_main_v8 (ix2 b j) k = ix3 b k j := funext fun a => Fin.ext (by
      match a with | ⟨0, _⟩ => rfl | ⟨1, _⟩ => rfl | ⟨2, _⟩ => rfl)
    rw [e1, val_main_v7_apply, val_main_v5_apply, val_main_v4_apply, val_main_v2_apply, val_main_v3_apply, val_main_v6_apply,
      val_main_cst_apply, cross_apply]
    exact congrArg _ Ideal.ofBits_zero_f32
  simp only [hterm]
  rw [val_main_cst_0_apply]
  exact (congrArg (· + _) Ideal.ofBits_zero_f32).trans
    (Cert.Columns.sum_select_diag (by norm_num) (fun k => bil (mat x1) (rows x0 b k) (rows x0 b j)) j)

/-- THE REFERENCE AT AN INDEX: the two diagonal forms minus the two cross forms. -/
theorem reference_apply (b : Fin 64) (i j : Fin 1024) :
    val_main_v16 (F := Ideal) x0 x1 (ix3 b i j) = referenceForm (rows x0 b) (mat x1) i j := by
  have e9 : idx_main_v9 (idx_main_v11 (ix3 b i j)) = ix2 b i := funext fun a => Fin.ext (by
    match a with | ⟨0, _⟩ => rfl | ⟨1, _⟩ => rfl)
  have e10 : idx_main_v10 (idx_main_v12 (ix3 b i j)) = ix2 b j := funext fun a => Fin.ext (by
    match a with | ⟨0, _⟩ => rfl | ⟨1, _⟩ => rfl)
  have e15 : idx_main_v15 (ix3 b i j) = ix3 b j i := funext fun a => Fin.ext (by
    match a with | ⟨0, _⟩ => rfl | ⟨1, _⟩ => rfl | ⟨2, _⟩ => rfl)
  rw [val_main_v16_apply, val_main_v14_apply, val_main_v13_apply, val_main_v11_apply, val_main_v9_apply, val_main_v12_apply,
    val_main_v10_apply, val_main_v15_apply, e9, e10, e15, diag_apply, diag_apply, cross_apply, cross_apply]
  rfl

end Cert.RefValue

end
-- ==== Proof.Payload.lean ====
/-
  The kernel body's stored value, read at an index. From its two loaded blocks — `x0`, the rows of one batch element,
  shape [1, 1024, 768], and `x1`, the matrix it is handed, shape [768, 768] — the body computes, all at `Ideal`
  (where the changes of float format are the identity):
      `Qb[p, e] = Σ_d x0[0, p, d] · x1[d, e]`                      (first matrix product, into a zero accumulator)
      `qv[p]    = half · Σ_e Qb[p, e] · x0[0, p, e]`               (lane sum of the pointwise product, scaled)
      `cross[p, q] = Σ_e Qb[p, e] · x0[0, q, e]`                   (second product, contracting both last axes)
      `out[0, p, q] = (qv[p] + qv[q]) − cross[p, q]`                (column and transposed row broadcast, then subtract)
  that is `QuadForm.symForm half rows x1 p q`.
-/
import proofs.«110251_j4148938408316_1_alg».proof.Proof.Gen.KernelIdeal.Skeleton
import proofs.«110251_j4148938408316_1_alg».proof.Proof.QuadForm
import proofs.«110251_j4148938408316_1_alg».proof.Proof.Columns
import Idealize.ShloMosaic.Lib.ValueIdx
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx Cert.QuadForm

/-! ## The first product: rows by the matrix -/

theorem lhsA_0 (i : S1024x768.Idx) (k : dot_S1024x768_S768x768_S1024x768_1_0_0_1_n_n.contr.Idx) :
    (dot_S1024x768_S768x768_S1024x768_1_0_0_1_n_n.lhsIdx i k 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhsA_1 (i : S1024x768.Idx) (k : dot_S1024x768_S768x768_S1024x768_1_0_0_1_n_n.contr.Idx) :
    (dot_S1024x768_S768x768_S1024x768_1_0_0_1_n_n.lhsIdx i k 1).val = (k ⟨0, by decide⟩).val :=
  dot_S1024x768_S768x768_S1024x768_1_0_0_1_n_n.lhsIdx_val_of_single rfl i k
theorem rhsA_0 (i : S1024x768.Idx) (k : dot_S1024x768_S768x768_S1024x768_1_0_0_1_n_n.contr.Idx) :
    (dot_S1024x768_S768x768_S1024x768_1_0_0_1_n_n.rhsIdx i k 0).val = (k ⟨0, by decide⟩).val :=
  dot_S1024x768_S768x768_S1024x768_1_0_0_1_n_n.rhsIdx_val_of_single rfl i k
theorem rhsA_1 (i : S1024x768.Idx) (k : dot_S1024x768_S768x768_S1024x768_1_0_0_1_n_n.contr.Idx) :
    (dot_S1024x768_S768x768_S1024x768_1_0_0_1_n_n.rhsIdx i k 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- Rows by the matrix, into the zero accumulator: at `(p, e)` the sum over `d` of row `p` at `d` times the matrix at
    `(d, e)`. -/
theorem rowsByMatrix_apply (l : FVec Ideal S1024x768 .bf16) (r : FVec Ideal S768x768 .bf16) (p : Fin 1024) (e : Fin 768) :
    matmul dot_S1024x768_S768x768_S1024x768_1_0_0_1_n_n none l r (constant S1024x768 .f32 0x00000000#32) (ix2 p e)
      = ∑ d : Fin 768, l (ix2 p d) * r (ix2 d e) := by
  simp only [matmul]
  rw [Ideal.matmul_constant_zero_apply, ← Equiv.sum_comp (ValueIdx.contrEquiv1 dot_S1024x768_S768x768_S1024x768_1_0_0_1_n_n 768 rfl rfl).symm]
  refine Finset.sum_congr rfl fun k _ => ?_
  have hk := ValueIdx.contrEquiv1_symm_val dot_S1024x768_S768x768_S1024x768_1_0_0_1_n_n 768 rfl rfl k
  have el : dot_S1024x768_S768x768_S1024x768_1_0_0_1_n_n.lhsIdx (ix2 p e) ((ValueIdx.contrEquiv1 dot_S1024x768_S768x768_S1024x768_1_0_0_1_n_n 768 rfl rfl).symm k) = ix2 p k := funext fun a => Fin.ext (by
    match a with
    | ⟨0, _⟩ => exact lhsA_0 _ _
    | ⟨1, _⟩ => exact (lhsA_1 _ _).trans hk)
  have er : dot_S1024x768_S768x768_S1024x768_1_0_0_1_n_n.rhsIdx (ix2 p e) ((ValueIdx.contrEquiv1 dot_S1024x768_S768x768_S1024x768_1_0_0_1_n_n 768 rfl rfl).symm k) = ix2 k e := funext fun a => Fin.ext (by
    match a with
    | ⟨0, _⟩ => exact (rhsA_0 _ _).trans hk
    | ⟨1, _⟩ => exact rhsA_1 _ _)
  rw [el, er]

/-! ## The second product: rows by rows, both contracted on the last axis -/

theorem lhsB_0 (i : S1024x1024.Idx) (k : dot_S1024x768_S1024x768_S1024x1024_1_1_0_0_n_n.contr.Idx) :
    (dot_S1024x768_S1024x768_S1024x1024_1_1_0_0_n_n.lhsIdx i k 0).val = (i 0).val := by
  unfold DotDims.lhsIdx
  rw [dif_neg (show ¬(0 : Fin S1024x768.rank) ∈ dot_S1024x768_S1024x768_S1024x1024_1_1_0_0_n_n.lhsBatch by decide), dif_pos (show (0 : Fin S1024x768.rank) ∈ dot_S1024x768_S1024x768_S1024x1024_1_1_0_0_n_n.lhsNonContracting by decide)]
  rfl
theorem lhsB_1 (i : S1024x1024.Idx) (k : dot_S1024x768_S1024x768_S1024x1024_1_1_0_0_n_n.contr.Idx) :
    (dot_S1024x768_S1024x768_S1024x1024_1_1_0_0_n_n.lhsIdx i k 1).val = (k ⟨0, by decide⟩).val :=
  dot_S1024x768_S1024x768_S1024x1024_1_1_0_0_n_n.lhsIdx_val_of_single rfl i k
theorem rhsB_0 (i : S1024x1024.Idx) (k : dot_S1024x768_S1024x768_S1024x1024_1_1_0_0_n_n.contr.Idx) :
    (dot_S1024x768_S1024x768_S1024x1024_1_1_0_0_n_n.rhsIdx i k 0).val = (i 1).val := by
  unfold DotDims.rhsIdx
  rw [dif_neg (show ¬(0 : Fin S1024x768.rank) ∈ dot_S1024x768_S1024x768_S1024x1024_1_1_0_0_n_n.rhsBatch by decide), dif_pos (show (0 : Fin S1024x768.rank) ∈ dot_S1024x768_S1024x768_S1024x1024_1_1_0_0_n_n.rhsNonContracting by decide)]
  rfl
theorem rhsB_1 (i : S1024x1024.Idx) (k : dot_S1024x768_S1024x768_S1024x1024_1_1_0_0_n_n.contr.Idx) :
    (dot_S1024x768_S1024x768_S1024x1024_1_1_0_0_n_n.rhsIdx i k 1).val = (k ⟨0, by decide⟩).val :=
  dot_S1024x768_S1024x768_S1024x1024_1_1_0_0_n_n.rhsIdx_val_of_single rfl i k

/-- Rows by rows, into the zero accumulator: at `(p, q)` the sum over `e` of the left operand's row `p` times the
    right operand's row `q`. -/
theorem rowsByRows_apply (l r : FVec Ideal S1024x768 .bf16) (p q : Fin 1024) :
    matmul dot_S1024x768_S1024x768_S1024x1024_1_1_0_0_n_n none l r (constant S1024x1024 .f32 0x00000000#32) (ix2 p q)
      = ∑ e : Fin 768, l (ix2 p e) * r (ix2 q e) := by
  simp only [matmul]
  rw [Ideal.matmul_constant_zero_apply, ← Equiv.sum_comp (ValueIdx.contrEquiv1 dot_S1024x768_S1024x768_S1024x1024_1_1_0_0_n_n 768 rfl rfl).symm]
  refine Finset.sum_congr rfl fun k _ => ?_
  have hk := ValueIdx.contrEquiv1_symm_val dot_S1024x768_S1024x768_S1024x1024_1_1_0_0_n_n 768 rfl rfl k
  have el : dot_S1024x768_S1024x768_S1024x1024_1_1_0_0_n_n.lhsIdx (ix2 p q) ((ValueIdx.contrEquiv1 dot_S1024x768_S1024x768_S1024x1024_1_1_0_0_n_n 768 rfl rfl).symm k) = ix2 p k := funext fun a => Fin.ext (by
    match a with
    | ⟨0, _⟩ => exact lhsB_0 _ _
    | ⟨1, _⟩ => exact (lhsB_1 _ _).trans hk)
  have er : dot_S1024x768_S1024x768_S1024x1024_1_1_0_0_n_n.rhsIdx (ix2 p q) ((ValueIdx.contrEquiv1 dot_S1024x768_S1024x768_S1024x1024_1_1_0_0_n_n 768 rfl rfl).symm k) = ix2 q k := funext fun a => Fin.ext (by
    match a with
    | ⟨0, _⟩ => exact rhsB_0 _ _
    | ⟨1, _⟩ => exact (rhsB_1 _ _).trans hk)
  rw [el, er]

/-! ## The lane sum -/

/-- The sum along the lanes of a [1024, 768] value, at row `p`. -/
theorem laneSum_apply (v : FVec Ideal S1024x768 .f32) (h : S1024x768.Reduces [1] S1024) (hφ : FKind.Formats .f32)
    (hacc : (0x00000000#32 : BitVec 32) = 0x00000000#32) (p : Fin 1024) :
    multiReduction .add [1] S1024 v 0x00000000#32 h hφ hacc (ix1 p) = ∑ e : Fin 768, v (ix2 p e) :=
  (Ideal.multiReduction_add_single v 0x00000000#32 h hφ hacc (ix1 p)).trans
    (Finset.sum_congr rfl fun e _ => congrArg v (funext fun a => Fin.ext (by
      match a with | ⟨0, _⟩ => rfl | ⟨1, _⟩ => rfl)))

/-! ## The stored value -/

/-- THE BODY'S STORED VALUE AT AN INDEX: half the diagonal forms of rows `p` and `q` under the handed matrix, minus their
    cross form. -/
theorem payload_apply (x0 : Vec Ideal S1x1024x768 .f32) (x1 : Vec Ideal S768x768 .f32) (u : Fin 1) (p q : Fin 1024) :
    k0_pay1 (F := Ideal) x0 x1 (ix3 u p q)
      = symForm (Ideal.ofBits .f32 0x3F000000#32) (fun p d => x0 (ix3 (0 : Fin 1) p d)) (fun d e => x1 (ix2 d e)) p q := by
  unfold k0_pay1
  simp only [shapeCast_ab_1ab_apply, subf_apply, addf_apply, Cert.Columns.broadcastTo_a1_ab_apply, broadcastTo_1b_ab_apply,
    transpose_ix2_apply, mulf_apply, broadcast_apply, Cert.Columns.shapeCast_a_a1_apply, laneSum_apply, rowsByRows_apply,
    rowsByMatrix_apply, truncf_apply, shapeCast_1ab_ab_apply, shapeCast_self]
  rw [laneSum_apply, transpose_ix2_apply]
  simp only [mulf_apply, broadcast_apply, Cert.Columns.shapeCast_a_a1_apply, laneSum_apply, rowsByMatrix_apply, truncf_apply,
    shapeCast_1ab_ab_apply]
  rw [laneSum_apply]
  simp only [mulf_apply, rowsByMatrix_apply, truncf_apply, shapeCast_1ab_ab_apply]
  rfl

end Cert.KernelValue

end
-- ==== Proof.KernelValue.lean ====
/-
  The kernel's result array. The grid has one point per batch element; point `t` reads block `(t, 0, 0)` of the batch
  array (all rows of element `t`) and the whole symmetrised matrix, and writes block `(t, 0, 0)` of the result. The
  symmetrised matrix is formed before the call: `proj + projᵀ`. So the result at `(b, i, j)` is the body's form of rows
  `i`, `j` of element `b` under `proj + projᵀ`, and the 64 blocks tile the result array.
-/
import proofs.«110251_j4148938408316_1_alg».proof.Proof.Gen.KernelIdeal.Value
import proofs.«110251_j4148938408316_1_alg».proof.Proof.Payload
import Idealize.ShloMosaic.Lib.StableHlo.Run

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Cert.QuadForm
open Idealize.ShloMosaic.Pipeline (Dat)

variable (m : (ℓ : Loc nD τ sig) → Buf (Elt Ideal) ℓ) (ρ : Dev nD → PrngReg)

/-- The value the constant `0.5` of the body denotes. -/
abbrev half : EReal := Ideal.ofBits .f32 0x3F000000#32

/-- THE KERNEL'S RESULT as one function of the two argument arrays, index by index. -/
def G (a0 : S64x1024x768.Idx → EReal) (a1 : S768x768.Idx → EReal) : S64x1024x1024.Idx → EReal := fun i =>
  kernelForm half (fun p d => a0 (ix3 (i 0) p d)) (fun d e => a1 (ix2 d e)) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The matrix the region finds in its second operand: the argument plus its transpose, written by the two
    operations of the program that come before the call. -/
theorem V_sym (c : Dev nD) : @Eq (FVec Ideal S768x768 .f32) (V m c main_v1)
    (addf (m ((c : Thread nD τ).loc main_arg1)) (transpose S768x768 [1, 0] (m ((c : Thread nD τ).loc main_arg1)) transposes_S768x768_S768x768_1_0)) := by
  dsimp only [Gen.V, Gen.hostOps0]
  after_results

/-- The two argument arrays and the symmetrised matrix, at their literal types. -/
abbrev batchArr (c : Dev nD) : FVec Ideal S64x1024x768 .f32 := m ((c : Thread nD τ).loc main_arg0)
abbrev projArr (c : Dev nD) : FVec Ideal S768x768 .f32 := m ((c : Thread nD τ).loc main_arg1)
abbrev symArr (c : Dev nD) : FVec Ideal S768x768 .f32 := V m c main_v1

/-- The symmetrised matrix at `(d, e)`. -/
theorem symArr_apply (c : Dev nD) (d e : Fin 768) :
    symArr m c (ix2 d e) = projArr m c (ix2 d e) + projArr m c (ix2 e d) := by
  show (V m c main_v1 : FVec Ideal S768x768 .f32) (ix2 d e) = _
  rw [V_sym, addf_apply, transpose_ix2_apply]

/-- AT ONE POINT, over plain blocks: if the first block holds the rows of batch element `b` and the second the
    symmetrised matrix, the body's stored value at `(u, p, q)` is `G` at `(b, p, q)`. -/
theorem point_eq (x0 : Vec Ideal S1x1024x768 .f32) (x1 : Vec Ideal S768x768 .f32)
    (a0 : S64x1024x768.Idx → EReal) (a1 : S768x768.Idx → EReal) (b : Fin 64)
    (h0 : ∀ (p : Fin 1024) (d : Fin 768), x0 (ix3 (0 : Fin 1) p d) = a0 (ix3 b p d))
    (h1 : ∀ d e : Fin 768, x1 (ix2 d e) = a1 (ix2 d e) + a1 (ix2 e d)) (u : Fin 1) (p q : Fin 1024) :
    k0_pay1 (F := Ideal) x0 x1 (ix3 u p q) = G a0 a1 (ix3 b p q) := by
  rw [payload_apply]
  unfold G kernelForm
  have e0 : (fun (p : Fin 1024) (d : Fin 768) => x0 (ix3 (0 : Fin 1) p d)) = fun p d => a0 (ix3 b p d) :=
    funext fun p => funext fun d => h0 p d
  have e1 : (fun d e : Fin 768 => x1 (ix2 d e)) = fun d e => a1 (ix2 d e) + a1 (ix2 e d) :=
    funext fun d => funext fun e => h1 d e
  rw [e0, e1]

/-- The printed index maps over the grid: the batch window and the result window sit at block `(t, 0, 0)`, the matrix
    window at block `(0, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of `G` of the argument arrays. -/
theorem flushed_eq (c : Dev nD) (t : Fin cfg0.N) :
    (dats m 0 c).flushed 2 t = ((cfg0.win 2).blk t).view.read (Elt Ideal) (G (batchArr m c) (projArr m c)) := by
  rw [flushed2]
  unfold out0_2
  rw [View.canon_unit_zero hz3]
  simp only [View.ld_unit_zero (S := S1x1024x768) hz3, View.ld_unit_zero (S := S768x768) hz2]
  funext y
  obtain ⟨u, p, q, rfl⟩ : ∃ (u : Fin 1) (p q : Fin 1024), y = ix3 u p q := ⟨y 0, y 1, y 2, eq_ix3 y⟩
  obtain ⟨e00, e01, e02, e10, e11, e20, e21, e22⟩ := idx_facts t
  refine (point_eq (iblk m c 0 t) (iblk m c 1 t) (batchArr m c) (projArr m c)
    ⟨t.val, lt_of_lt_of_eq t.isLt N_0⟩ ?_ ?_ u p q).trans ?_
  · intro p d
    show V m c main_arg0 (((cfg0.win 0).blk t).view.emb (ix3 (0 : Fin 1) p d)) = _
    rw [V_main_arg0]
    refine congrArg (batchArr m c) (funext fun a => Fin.ext ?_)
    match a with
    | ⟨0, _⟩ => show win0_0.index t (0 : Fin 3) * 1 + 1 * 0 = t.val; omega
    | ⟨1, _⟩ => show win0_0.index t (1 : Fin 3) * 1024 + 1 * p.val = p.val; omega
    | ⟨2, _⟩ => show win0_0.index t (2 : Fin 3) * 768 + 1 * d.val = d.val; omega
  · intro d e
    refine Eq.trans ?_ (symArr_apply m c d e)
    show V m c main_v1 (((cfg0.win 1).blk t).view.emb (ix2 d e)) = V m c main_v1 (ix2 d e)
    refine congrArg (V m c main_v1) (funext fun a => Fin.ext ?_)
    match a with
    | ⟨0, _⟩ => show win0_1.index t (0 : Fin 2) * 768 + 1 * d.val = d.val; omega
    | ⟨1, _⟩ => show win0_1.index t (1 : Fin 2) * 768 + 1 * e.val = e.val; omega
  · show _ = G (batchArr m c) (projArr m c) (((cfg0.win 2).blk t).view.emb (ix3 u p q))
    refine congrArg (G (batchArr m c) (projArr m c)) (funext fun a => Fin.ext ?_)
    have hu : u.val = 0 := by omega
    match a with
    | ⟨0, _⟩ => show t.val = win0_2.index t (0 : Fin 3) * 1 + 1 * u.val; omega
    | ⟨1, _⟩ => show p.val = win0_2.index t (1 : Fin 3) * 1024 + 1 * p.val; omega
    | ⟨2, _⟩ => show q.val = win0_2.index t (2 : Fin 3) * 1024 + 1 * q.val; omega

/-- An index of the result array is in point `t`'s block iff each coordinate is in the block's range on its axis. -/
theorem mem_blk (t : Fin cfg0.N) (i : S64x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2).slice (win0_2.rect t)).set ↔ _
  rw [View.set_slice_whole, Rect.mem_set_unit]
  exact Iff.rfl

/-- THE BLOCKS TILE THE RESULT: index `(b, i, j)` lies in the block of the point `b`. -/
theorem cover (i : S64x1024x1024.Idx) :
    ∃ t : Fin cfg0.N, (cfg0.win 2).flush t = true ∧ i ∈ ((cfg0.win 2).blk t).view.set := by
  have hi0 : (i 0).val < 64 := (i 0).isLt
  have hi1 : (i 1).val < 1024 := (i 1).isLt
  have hi2 : (i 2).val < 1024 := (i 2).isLt
  obtain ⟨t, ht⟩ : ∃ t : Fin cfg0.N, t.val = (i 0).val := ⟨⟨(i 0).val, lt_of_lt_of_eq hi0 N_0.symm⟩, rfl⟩
  obtain ⟨-, -, -, -, -, e20, e21, e22⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE RESULT ARRAY after the run is `G` of the argument arrays. -/
theorem final (c : Dev nD) : (dats m 0 c).arrAt 2 cfg0.N = G (batchArr m c) (projArr m c) :=
  (dats m 0 c).arrAt_eq_of_cover 2 (G (batchArr m c) (projArr m c)) (fun t _ => flushed_eq m c t) cover

/-- The kernel's run: it terminates with the result at `G` of the arguments and the arguments unchanged. -/
theorem run : θ_run defs (onTc (τ := τ) (main (F := Ideal))) ⟨m, fun _ => 0, ρ⟩ fun r => ∀ c : Dev nD,
      r.2.mem ((c : Thread nD τ).loc main_v2) = G (batchArr m c) (projArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelValue

end
-- ==== Proof.Finite.lean ====
/-
  From the precondition to real entries. The precondition says, of each input array, that every entry's absolute value
  compares below the pattern `0x7F800000`, which denotes `+∞`, the comparisons joined by `and` over the whole array and the
  two results joined by `and`. An extended real whose absolute value `max x (−x)` is below `+∞` is neither infinity, so
  it is a real number: every entry of both arrays is real.
-/
import proofs.«110251_j4148938408316_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun _ _ => funext fun d => d.elim0⟩

/-- The pattern of single-precision `+inf` denotes `⊤`. -/
theorem ofBits_inf : Ideal.ofBits .f32 0x7F800000#32 = (⊤ : EReal) := by
  simp [Ideal.ofBits, Ideal.ieee]

/-- An extended real whose absolute value compares below `⊤` is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

variable [Facts]

/-- Where the precondition holds, every entry of both arrays is a real number. -/
theorem real_of_pre (a0 : FVec Ideal S64x1024x768 .f32) (a1 : FVec Ideal S768x768 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨hA, hB⟩ := IntOp.andi_eq_one.1 h0
  refine ⟨fun i => ?_, fun i => ?_⟩
  · have hi := Host.reduce_andi_all _ _ _ _ _ hA i
    have hi' : Ideal.cmp .olt (max (a0 i) (-(a0 i))) (Ideal.ofBits .f32 0x7F800000#32) = 1#1 := hi
    rw [ofBits_inf] at hi'
    exact real_of_abs_lt_top _ hi'
  · have hi := Host.reduce_andi_all _ _ _ _ _ hB i
    have hi' : Ideal.cmp .olt (max (a1 i) (-(a1 i))) (Ideal.ofBits .f32 0x7F800000#32) = 1#1 := hi
    rw [ofBits_inf] at hi'
    exact real_of_abs_lt_top _ hi'

end Cert.Finite

end
-- ==== Proof.Bridge.lean ====
/-
  The two programs compute one function. On arrays whose entries are all real numbers, the reference's result at
  `(b, i, j)` — the two diagonal forms of rows `i`, `j` of batch element `b` under `proj` minus the two cross forms — is the
  kernel's — half the diagonal forms under `proj + projᵀ` minus the cross form under it, the constant `0.5` denoting
  `1/2` —, by the law of the quadratic form.
-/
import proofs.«110251_j4148938408316_1_alg».proof.Proof.RefValue
import proofs.«110251_j4148938408316_1_alg».proof.Proof.KernelValue
import proofs.«110251_j4148938408316_1_alg».proof.Proof.Finite

noncomputable section

namespace Cert.Bridge

open Idealize.ShloMosaic Idealize.ShloMosaic.ValueIdx Cert.QuadForm

/-- The reference's last stage is the kernel's result function, on real-valued arrays. -/
theorem result_eq (a0 : FVec Ideal Cert.KernelIdeal.S64x1024x768 .f32) (a1 : FVec Ideal Cert.KernelIdeal.S768x768 .f32)
    (h0 : ∀ i, ∃ r : ℝ, a0 i = (r : EReal)) (h1 : ∀ i, ∃ r : ℝ, a1 i = (r : EReal)) :
    Cert.ReferenceIdeal.Read.val_main_v16 (F := Ideal) a0 a1 = Cert.KernelValue.G a0 a1 := by
  funext i
  obtain ⟨b, p, q, rfl⟩ : ∃ (b : Fin 64) (p q : Fin 1024), i = ix3 b p q := ⟨i 0, i 1, i 2, eq_ix3 i⟩
  rw [Cert.RefValue.reference_apply]
  unfold Cert.KernelValue.G Cert.KernelValue.half
  rw [Cert.Columns.ofBits_half]
  exact (kernelForm_eq_referenceForm _ _ (fun p d => h0 _) (fun d e => h1 _) p q).symm

end Cert.Bridge

end
-- ==== Proof.lean ====
/- The pairwise quadratic form `dists[b, i, j] = (h_i − h_j)ᵀ A (h_i − h_j)`, `h = batch[b]`, `A = proj`, computed two ways.

   The reference expands it: with `cross[b, i, j] = h_iᵀ A h_j` (two contractions) and its diagonal `q[b, i]` (a masked
   sum), the result is `((q[b, i] + q[b, j]) − cross[b, i, j]) − cross[b, j, i]`.
   The kernel symmetrises the matrix first, `S = A + Aᵀ`, and per batch element computes `Qb = h S`,
   `qv[i] = ½ · Σ_e Qb[i, e] · h[i, e]`, `cross_sym = Qb hᵀ`, and stores `(qv[i] + qv[j]) − cross_sym[i, j]`.
   Since `h_iᵀ S h_j = h_iᵀ A h_j + h_jᵀ A h_i`, the two agree on real entries (Proof/QuadForm.lean); the step is
   distributivity and an exchange of two finite sums, which is why the precondition — every input entry finite — is
   used (Proof/Finite.lean). At `Ideal` the changes of float format around the two matrix products are the identity.

   The modules: Proof/QuadForm.lean (the law), Proof/Columns.lean (column layout readings, the masked diagonal sum, the
   constant ½), Proof/RefValue.lean (the reference at an index), Proof/Payload.lean (the body's stored value at an index),
   Proof/KernelValue.lean (the result array from its 64 blocks), Proof/Finite.lean, Proof/Bridge.lean (the two results are
   one function). The three frames are the generated ones; no operation was rewritten by the idealization, so the
   kernel and its idealization are the same text read at two instances. -/
import proofs.«110251_j4148938408316_1_alg».proof.Defs
import proofs.«110251_j4148938408316_1_alg».proof.Proof.Gen.Kernel
import proofs.«110251_j4148938408316_1_alg».proof.Proof.Gen.Kernel.Skeleton
import proofs.«110251_j4148938408316_1_alg».proof.Proof.Gen.Kernel.Launch
import proofs.«110251_j4148938408316_1_alg».proof.Proof.Gen.Kernel.Points
import proofs.«110251_j4148938408316_1_alg».proof.Proof.Gen.Kernel.Frame
import proofs.«110251_j4148938408316_1_alg».proof.Proof.Gen.KernelIdeal
import proofs.«110251_j4148938408316_1_alg».proof.Proof.Gen.KernelIdeal.Skeleton
import proofs.«110251_j4148938408316_1_alg».proof.Proof.Gen.KernelIdeal.Launch
import proofs.«110251_j4148938408316_1_alg».proof.Proof.Gen.KernelIdeal.Points
import proofs.«110251_j4148938408316_1_alg».proof.Proof.Gen.KernelIdeal.Frame
import proofs.«110251_j4148938408316_1_alg».proof.Proof.Gen.ReferenceIdeal
import proofs.«110251_j4148938408316_1_alg».proof.Proof.Gen.Pre_finite_inputs
import proofs.«110251_j4148938408316_1_alg».proof.Proof.Gen.KernelIdeal.Value
import proofs.«110251_j4148938408316_1_alg».proof.Proof.Gen.ReferenceIdeal.Run
import proofs.«110251_j4148938408316_1_alg».proof.Proof.Gen.ReferenceIdeal.Read
import proofs.«110251_j4148938408316_1_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on `batch` and `proj`, both finite: the kernel's result array is `G` of them (its 64 blocks,
    each the body's form of one batch element's rows), the reference's is its last stage of them, and on real entries
    these are one function. -/
theorem algebraic : Cert.algebraic_KernelIdeal_ReferenceIdeal := by
  intro m ρ m' ρ' hpre hagree
  refine ⟨fun c => Cert.KernelValue.G (Cert.KernelValue.batchArr m c) (Cert.KernelValue.projArr m c), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  obtain ⟨h0, h1⟩ := Cert.Finite.real_of_pre _ _ (hpre c)
  exact Cert.Bridge.result_eq _ _ h0 h1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
